-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x128 : Shape := ⟨2, ![64, 128]⟩
abbrev S128x128 : Shape := ⟨2, ![128, 128]⟩
abbrev S128 : Shape := ⟨1, ![128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S64x128 .f32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x64 .f32) (main_arg1 : FVec F S800000 .f32) (main_arg2 : FVec F S64x128 .f32) (main_arg3 : FVec F S128x128 .f32) (main_arg4 : FVec F S64x128 .f32) (main_arg5 : FVec F S128 .f32) (main_arg6 : IVec S800000 32) (main_arg7 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S50000x64 : Shape := ⟨2, ![50000, 64]⟩
abbrev S800000 : Shape := ⟨1, ![800000]⟩
abbrev S64x128 : Shape := ⟨2, ![64, 128]⟩
abbrev S128x128 : Shape := ⟨2, ![128, 128]⟩
abbrev S128 : Shape := ⟨1, ![128]⟩
abbrev S64x256 : Shape := ⟨2, ![64, 256]⟩
abbrev S_ : Shape := ⟨0, ![]⟩
abbrev S256 : Shape := ⟨1, ![256]⟩
abbrev S1x256 : Shape := ⟨2, ![1, 256]⟩
abbrev S50000x256 : Shape := ⟨2, ![50000, 256]⟩
abbrev S5000x64 : Shape := ⟨2, ![5000, 64]⟩
abbrev S5000x256 : Shape := ⟨2, ![5000, 256]⟩
abbrev S50000x128 : Shape := ⟨2, ![50000, 128]⟩
abbrev S800000x1 : Shape := ⟨2, ![800000, 1]⟩
abbrev S800000x128 : Shape := ⟨2, ![800000, 128]⟩
abbrev S5000x128 : Shape := ⟨2, ![5000, 128]⟩

abbrev nBuf : Space → Nat
  | .hbm => 51
  | .vmem => 23
  | .smem => 0
  | _ => 0

abbrev bufTy : (tb : Table) → Fin (tcTables nBuf tb) → BufTy
  | .hbm, ⟨0, _⟩ => ⟨S50000x64, .f32⟩
  | .hbm, ⟨1, _⟩ => ⟨S800000, .f32⟩
  | .hbm, ⟨2, _⟩ => ⟨S64x128, .f32⟩
  | .hbm, ⟨3, _⟩ => ⟨S128x128, .f32⟩
  | .hbm, ⟨4, _⟩ => ⟨S64x128, .f32⟩
  | .hbm, ⟨5, _⟩ => ⟨S128, .f32⟩
  | .hbm, ⟨6, _⟩ => ⟨S800000, .i32⟩
  | .hbm, ⟨7, _⟩ => ⟨S800000, .i32⟩
  | .hbm, ⟨8, _⟩ => ⟨S64x256, .f32⟩
  | .hbm, ⟨9, _⟩ => ⟨S_, .f32⟩
  | .hbm, ⟨10, _⟩ => ⟨S128, .f32⟩
  | .hbm, ⟨11, _⟩ => ⟨S256, .f32⟩
  | .hbm, ⟨12, _⟩ => ⟨S1x256, .f32⟩
  | .hbm, ⟨13, _⟩ => ⟨S50000x256, .f32⟩
  | .hbm, ⟨14, _⟩ => ⟨S50000x128, .f32⟩
  | .hbm, ⟨15, _⟩ => ⟨S50000x128, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S800000x1, .f32⟩
  | .hbm, ⟨26, _⟩ => ⟨S800000x128, .f32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S800000x1, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x128, .f32⟩
  | .local _ .vmem, ⟨0, _⟩ => ⟨S5000x64, .f32⟩
  | .local _ .vmem, ⟨1, _⟩ => ⟨S5000x64, .f32⟩
  | .local _ .vmem, ⟨2, _⟩ => ⟨S64x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  concatenates_S64x128_S64x128_S64x256_d1 : Shape.Concatenates [S64x128, S64x128] S64x256 1
  bcast_S_S128 : S_.BroadcastsInDim S128 (![] : Fin 0 → Fin S128.rank)
  concatenates_S128_S128_S256_d0 : Shape.Concatenates [S128, S128] S256 0
  shapeCasts_S256_S1x256 : S256.ShapeCasts S1x256
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  slices_S50000x256_S50000x128_0_0 : S50000x256.Slices ![0, 0] S50000x128
  slices_S50000x256_S50000x128_0_128 : S50000x256.Slices ![0, 128] S50000x128
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  dot_S5000x64_S64x256_S5000x256_1_0_0_1_n_n_wf : DotDims.WF S5000x64 S64x256 S5000x256 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v20) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v34) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x64 : Shape := ⟨2, ![50000, 64]⟩
abbrev S800000 : Shape := ⟨1, ![800000]⟩
abbrev S64x128 : Shape := ⟨2, ![64, 128]⟩
abbrev S128x128 : Shape := ⟨2, ![128, 128]⟩
abbrev S128 : Shape := ⟨1, ![128]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .f32⟩
  | .hbm, ⟨2, _⟩ => ⟨S64x128, .f32⟩
  | .hbm, ⟨3, _⟩ => ⟨S128x128, .f32⟩
  | .hbm, ⟨4, _⟩ => ⟨S64x128, .f32⟩
  | .hbm, ⟨5, _⟩ => ⟨S128, .f32⟩
  | .hbm, ⟨6, _⟩ => ⟨S800000, .i32⟩
  | .hbm, ⟨7, _⟩ => ⟨S800000, .i32⟩
  | .hbm, ⟨8, _⟩ => ⟨S50000x128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .f32⟩
  | .hbm, ⟨18, _⟩ => ⟨S800000x1, .f32⟩
  | .hbm, ⟨19, _⟩ => ⟨S800000x128, .f32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S1x128, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x128, .f32⟩
  | .hbm, ⟨43, _⟩ => ⟨S800000x1, .f32⟩
  | .hbm, ⟨44, _⟩ => ⟨S800000x128, .f32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S50000x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_c_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.BlockProduct.lean ====
/-
  The two matrix products the kernels' bodies compute, read at one entry of a row block.

  A block of 5000 rows of the left operand against the whole right operand: entry (p, q) of the product is the sum over the
  contracted axis of the left operand's row p against the right operand's column q. The bodies narrow both operands to
  bf16 first, which changes no value over the extended reals, and accumulate into a zero block, which adds nothing.
  The first body also adds a one-row bias laid along every row: entry (p, q) gets the bias' entry (0, q).
-/
import proofs.«164993_j15195594293517_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.TcCoe

/-! ## The 64-deep product of the first layer: [5000, 64] · [64, 256] -/

theorem lhs64_0 (i : S5000x256.Idx) (q : dot_S5000x64_S64x256_S5000x256_1_0_0_1_n_n.contr.Idx) :
    (dot_S5000x64_S64x256_S5000x256_1_0_0_1_n_n.lhsIdx i q 0).val = (i 0).val := by
  unfold DotDims.lhsIdx
  rw [dif_neg (show ¬(0 : Fin S5000x64.rank) ∈ dot_S5000x64_S64x256_S5000x256_1_0_0_1_n_n.lhsBatch by decide), dif_pos (show (0 : Fin S5000x64.rank) ∈ dot_S5000x64_S64x256_S5000x256_1_0_0_1_n_n.lhsNonContracting by decide)]
  rfl
theorem lhs64_1 (i : S5000x256.Idx) (q : dot_S5000x64_S64x256_S5000x256_1_0_0_1_n_n.contr.Idx) :
    (dot_S5000x64_S64x256_S5000x256_1_0_0_1_n_n.lhsIdx i q 1).val = (q ⟨0, by decide⟩).val :=
  dot_S5000x64_S64x256_S5000x256_1_0_0_1_n_n.lhsIdx_val_of_single rfl i q
theorem rhs64_0 (i : S5000x256.Idx) (q : dot_S5000x64_S64x256_S5000x256_1_0_0_1_n_n.contr.Idx) :
    (dot_S5000x64_S64x256_S5000x256_1_0_0_1_n_n.rhsIdx i q 0).val = (q ⟨0, by decide⟩).val :=
  dot_S5000x64_S64x256_S5000x256_1_0_0_1_n_n.rhsIdx_val_of_single rfl i q
theorem rhs64_1 (i : S5000x256.Idx) (q : dot_S5000x64_S64x256_S5000x256_1_0_0_1_n_n.contr.Idx) :
    (dot_S5000x64_S64x256_S5000x256_1_0_0_1_n_n.rhsIdx i q 1).val = (i 1).val := by
  unfold DotDims.rhsIdx
  rw [dif_neg (show ¬(1 : Fin S64x256.rank) ∈ dot_S5000x64_S64x256_S5000x256_1_0_0_1_n_n.rhsBatch by decide), dif_pos (show (1 : Fin S64x256.rank) ∈ dot_S5000x64_S64x256_S5000x256_1_0_0_1_n_n.rhsNonContracting by decide)]
  rfl

/-- Row p of the left block at depth k. -/
abbrev row64 (i : S5000x256.Idx) (k : Fin 64) : S5000x64.Idx := fun a => match a with
  | ⟨0, _⟩ => ⟨(i 0).val, (i 0).isLt⟩
  | ⟨1, _⟩ => ⟨k.val, k.isLt⟩
/-- Column q of the right operand at depth k. -/
abbrev col64 (i : S5000x256.Idx) (k : Fin 64) : S64x256.Idx := fun a => match a with
  | ⟨0, _⟩ => ⟨k.val, k.isLt⟩
  | ⟨1, _⟩ => ⟨(i 1).val, (i 1).isLt⟩
/-- The bias' entry above column q. -/
abbrev bias256 (i : S5000x256.Idx) : S1x256.Idx := fun a => match a with
  | ⟨0, _⟩ => ⟨0, Nat.one_pos⟩
  | ⟨1, _⟩ => ⟨(i 1).val, (i 1).isLt⟩

/-- The product into a zero block, at an entry: the sum over the 64 depths. -/
theorem product64_apply {φ₁ φ₂ : FTy} (l : FVec Ideal S5000x64 φ₁) (r : FVec Ideal S64x256 φ₂) (i : S5000x256.Idx) :
    matmul dot_S5000x64_S64x256_S5000x256_1_0_0_1_n_n none l r (constant S5000x256 .f32 0x00000000#32) i
      = ∑ k : Fin 64, l (row64 i k) * r (col64 i k) := by
  simp only [matmul]
  rw [Ideal.matmul_constant_zero_apply, ← Equiv.sum_comp (ValueIdx.contrEquiv1 dot_S5000x64_S64x256_S5000x256_1_0_0_1_n_n 64 rfl rfl).symm]
  refine Finset.sum_congr rfl fun k _ => ?_
  have hk := ValueIdx.contrEquiv1_symm_val dot_S5000x64_S64x256_S5000x256_1_0_0_1_n_n 64 rfl rfl k
  have el : dot_S5000x64_S64x256_S5000x256_1_0_0_1_n_n.lhsIdx i ((ValueIdx.contrEquiv1 dot_S5000x64_S64x256_S5000x256_1_0_0_1_n_n 64 rfl rfl).symm k) = row64 i k := funext fun a => Fin.ext (by
    match a with
    | ⟨0, _⟩ => exact lhs64_0 _ _
    | ⟨1, _⟩ => exact (lhs64_1 _ _).trans hk)
  have er : dot_S5000x64_S64x256_S5000x256_1_0_0_1_n_n.rhsIdx i ((ValueIdx.contrEquiv1 dot_S5000x64_S64x256_S5000x256_1_0_0_1_n_n 64 rfl rfl).symm k) = col64 i k := funext fun a => Fin.ext (by
    match a with
    | ⟨0, _⟩ => exact (rhs64_0 _ _).trans hk
    | ⟨1, _⟩ => exact rhs64_1 _ _)
  rw [el, er]

/-- What the first body stores, at an entry: row p of the loaded rows against column q of the loaded weights, plus
    the loaded bias above column q. -/
theorem linear_bias_apply (x0 : Vec Ideal S5000x64 .f32) (x1 : Vec Ideal S64x256 .f32) (x2 : Vec Ideal S1x256 .f32) (i : S5000x256.Idx) :
    k0_pay1 (F := Ideal) x0 x1 x2 i = (∑ k : Fin 64, x0 (row64 i k) * x1 (col64 i k)) + x2 (bias256 i) := by
  unfold k0_pay1
  simp only [shapeCast_self]
  rw [ValueIdx.addf_apply, product64_apply]
  congr 1
  exact broadcastTo_apply x2 broadcasts_S1x256_S5000x256 i (bias256 i) (fun a => by
    match a with
    | ⟨0, _⟩ => rfl
    | ⟨1, _⟩ => show (i 1).val = if (256 : Nat) = 1 then 0 else (i 1).val; rw [if_neg (by decide)])

/-! ## The 128-deep product of the second layer: [5000, 128] · [128, 128] -/

theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Row p of the left block at depth k. -/
abbrev row128 (i : S5000x128.Idx) (k : Fin 128) : S5000x128.Idx := fun a => match a with
  | ⟨0, _⟩ => ⟨(i 0).val, (i 0).isLt⟩
  | ⟨1, _⟩ => ⟨k.val, k.isLt⟩
/-- Column q of the right operand at depth k. -/
abbrev col128 (i : S5000x128.Idx) (k : Fin 128) : S128x128.Idx := fun a => match a with
  | ⟨0, _⟩ => ⟨k.val, k.isLt⟩
  | ⟨1, _⟩ => ⟨(i 1).val, (i 1).isLt⟩

/-- The product into a zero block, at an entry: the sum over the 128 depths. -/
theorem product128_apply {φ₁ φ₂ : FTy} (l : FVec Ideal S5000x128 φ₁) (r : FVec Ideal S128x128 φ₂) (i : S5000x128.Idx) :
    matmul dot_S5000x128_S128x128_S5000x128_1_0_0_1_n_n none l r (constant S5000x128 .f32 0x00000000#32) i
      = ∑ k : Fin 128, l (row128 i k) * r (col128 i k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx i ((ValueIdx.contrEquiv1 dot_S5000x128_S128x128_S5000x128_1_0_0_1_n_n 128 rfl rfl).symm k) = row128 i k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx i ((ValueIdx.contrEquiv1 dot_S5000x128_S128x128_S5000x128_1_0_0_1_n_n 128 rfl rfl).symm k) = col128 i k := funext fun a => Fin.ext (by
    match a with
    | ⟨0, _⟩ => exact (rhs128_0 _ _).trans hk
    | ⟨1, _⟩ => exact rhs128_1 _ _)
  rw [el, er]

/-- What the third body stores, at an entry: row p of the loaded rows against column q of the loaded weights. -/
theorem linear_apply (x0 : Vec Ideal S5000x128 .f32) (x1 : Vec Ideal S128x128 .f32) (i : S5000x128.Idx) :
    k2_pay1 (F := Ideal) x0 x1 i = ∑ k : Fin 128, x0 (row128 i k) * x1 (col128 i k) := by
  unfold k2_pay1
  simp only [shapeCast_self]
  exact product128_apply _ _ i

/-! ## The two pointwise bodies: the positive part of the first block plus the second -/

/-- What the second body stores: max(a, 0) + b, entry by entry. -/
theorem relu_add1 {F : FTy → Type} [FloatOps F] (x0 x1 : Vec F S5000x128 .f32) :
    k1_pay1 x0 x1 = addf (maximumf x0 (broadcast S5000x128 (Scalar.ofBits .f32 0x00000000#32))) x1 := by
  unfold k1_pay1
  simp only [shapeCast_self]

/-- What the fourth body stores: the same function. -/
theorem relu_add3 {F : FTy → Type} [FloatOps F] (x0 x1 : Vec F S5000x128 .f32) :
    k3_pay1 x0 x1 = addf (maximumf x0 (broadcast S5000x128 (Scalar.ofBits .f32 0x00000000#32))) x1 := by
  unfold k3_pay1
  simp only [shapeCast_self]

end Cert.KernelIdeal.BlockProduct

end
-- ==== Proof.Region0.lean ====
/-
  The first pallas_call (ten row blocks of x against the whole concatenated weights, plus the one-row concatenated bias)
  leaves in its result array, at entry (r, q), the sum over the 64 depths k of x (r, k) · w (k, q), plus b (0, q) —
  of the three whole arrays it reads.

  Grid point t reads rows 5000 t … 5000 t + 4999 of x and the whole of w and b, and writes the same rows of the result;
  so what point t writes back is block t of that one whole-array function, and the ten blocks tile the 50000 rows.
-/
import proofs.«164993_j15195594293517_1_alg».proof.Proof.Gen.KernelIdeal.Frame
import proofs.«164993_j15195594293517_1_alg».proof.Proof.BlockProduct
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row r of x at depth k. -/
abbrev xAt (i : S50000x256.Idx) (k : Fin 64) : S50000x64.Idx := fun a => match a with
  | ⟨0, _⟩ => ⟨(i 0).val, (i 0).isLt⟩
  | ⟨1, _⟩ => ⟨k.val, k.isLt⟩
/-- Column q of the weights at depth k. -/
abbrev wAt (i : S50000x256.Idx) (k : Fin 64) : S64x256.Idx := fun a => match a with
  | ⟨0, _⟩ => ⟨k.val, k.isLt⟩
  | ⟨1, _⟩ => ⟨(i 1).val, (i 1).isLt⟩
/-- The bias' entry above column q. -/
abbrev bAt (i : S50000x256.Idx) : S1x256.Idx := fun a => match a with
  | ⟨0, _⟩ => ⟨0, Nat.one_pos⟩
  | ⟨1, _⟩ => ⟨(i 1).val, (i 1).isLt⟩

/-- x · w + b over the whole arrays, entry by entry. -/
def affine (x : (⟨S50000x64, .f32⟩ : BufTy).Contents (Elt Ideal)) (w : (⟨S64x256, .f32⟩ : BufTy).Contents (Elt Ideal))
    (b : (⟨S1x256, .f32⟩ : BufTy).Contents (Elt Ideal)) : (⟨S50000x256, .f32⟩ : BufTy).Contents (Elt Ideal) :=
  fun i => (∑ k : Fin 64, x (xAt i k) * w (wAt i k)) + b (bAt i)

/-- The row windows move together and the whole-array windows stay at block (0, 0). -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 9 ∧ win0_3.index t (1 : Fin 2) = 0 :=
  (by decide +kernel : ∀ t : Fin grid0.N, _)

/-- Every one of the ten row blocks is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- What point t writes back is block t of x · w + b of the arrays the region finds. -/
theorem flushed_eq (c : Dev nD) (t : Fin cfg0.N) :
    (dat0 V c).flushed 3 t = ((cfg0.win 3).blk t).view.read (Elt Ideal) (affine (V c main_arg0) (V c main_v0) (V c main_v3)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x256) hz, View.ld_unit_zero (S := S1x256) hz]
  obtain ⟨e0, e1, e2, e3, e4, e5, e6, e7⟩ := idx_facts t
  funext j
  show k0_pay1 (F := Ideal) (iblk0 V c 0 t) (iblk0 V c 1 t) (iblk0 V c 2 t) j
    = affine (V c main_arg0) (V c main_v0) (V c main_v3) (((cfg0.win 3).blk t).view.emb j)
  rw [BlockProduct.linear_bias_apply]
  unfold affine
  have hx : ∀ k : Fin 64, (iblk0 V c 0 t : Vec Ideal S5000x64 .f32) (BlockProduct.row64 j k)
      = V c main_arg0 (xAt (((cfg0.win 3).blk t).view.emb j) k) := fun k => by
    unfold iblk0
    rw [View.read_apply]
    show V c main_arg0 (((cfg0.win 0).blk t).view.emb (BlockProduct.row64 j k)) = _
    congr 1
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 64 + 1 * k.val = k.val; omega
  have hw : ∀ k : Fin 64, (iblk0 V c 1 t : Vec Ideal S64x256 .f32) (BlockProduct.col64 j k)
      = V c main_v0 (wAt (((cfg0.win 3).blk t).view.emb j) k) := fun k => by
    unfold iblk0
    rw [View.read_apply]
    show V c main_v0 (((cfg0.win 1).blk t).view.emb (BlockProduct.col64 j k)) = _
    congr 1
    funext a; apply Fin.ext
    match a with
    | ⟨0, _⟩ => show win0_1.index t (0 : Fin 2) * 64 + 1 * k.val = k.val; omega
    | ⟨1, _⟩ => show win0_1.index t (1 : Fin 2) * 256 + 1 * (j 1).val = win0_3.index t (1 : Fin 2) * 256 + 1 * (j 1).val; omega
  have hb : (iblk0 V c 2 t : Vec Ideal S1x256 .f32) (BlockProduct.bias256 j)
      = V c main_v3 (bAt (((cfg0.win 3).blk t).view.emb j)) := by
    unfold iblk0
    rw [View.read_apply]
    show V c main_v3 (((cfg0.win 2).blk t).view.emb (BlockProduct.bias256 j)) = _
    congr 1
    funext a; apply Fin.ext
    match a with
    | ⟨0, _⟩ => show win0_2.index t (0 : Fin 2) * 1 + 1 * 0 = 0; omega
    | ⟨1, _⟩ => show win0_2.index t (1 : Fin 2) * 256 + 1 * (j 1).val = win0_3.index t (1 : Fin 2) * 256 + 1 * (j 1).val; omega
  rw [hb, Finset.sum_congr rfl fun k _ => by rw [hx k, hw k]]

/-- An entry of the result array lies in point t's block exactly when its row and column lie in the block's ranges. -/
theorem mem_blk (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v4).slice (win0_3.rect t)).set ↔ _
  rw [View.set_slice_whole, Rect.mem_set_unit]
  exact Iff.rfl

/-- The ten blocks tile the array: row r lies in block r / 5000. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 256 ≤ (i 1).val ∧ (i 1).val < win0_3.index t (1 : Fin 2) * 256 + 256; omega

/-- After the region its result array holds x · w + b of the three arrays it read. -/
theorem final (c : Dev nD) : (dat0 V c).arrAt 3 cfg0.N = affine (V c main_arg0) (V c main_v0) (V c main_v3) :=
  (dat0 V c).arrAt_eq_of_cover 3 (affine (V c main_arg0) (V c main_v0) (V c main_v3)) (fun t _ => flushed_eq V c t) cover

end Cert.KernelIdeal.Region0

end
-- ==== Proof.Region1.lean ====
/-
  The second pallas_call (the positive part of the first array plus the second, block by block over ten row blocks)
  leaves, in its result array, max(a, 0) + b of the two whole arrays it reads, entry by entry.

  Every grid point t reads rows 5000 t … 5000 t + 4999 of both operands and writes the same rows of the result: all
  three windows move together, so what point t writes back is block t of the one whole-array function, and the ten
  blocks tile the 50000 rows.
-/
import proofs.«164993_j15195594293517_1_alg».proof.Proof.Gen.KernelIdeal.Frame
import proofs.«164993_j15195594293517_1_alg».proof.Proof.BlockProduct
import Idealize.ShloMosaic.Lib.Pipeline.Value

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- max(a, 0) + b over whole [50000, 128] arrays. -/
abbrev reluAdd (a b : S50000x128.Idx → Elt F .f32) : S50000x128.Idx → Elt F .f32 :=
  fun i => FloatOps.addf (FloatOps.maximumf (a i) (Scalar.ofBits .f32 0x00000000#32)) (b i)

/-- The three windows' block indices agree at every grid point, and the result's block index is (t, 0). -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) ≤ 9 ∧ win1_2.index t (1 : Fin 2) = 0 :=
  (by decide +kernel : ∀ t : Fin grid1.N, _)

/-- Every one of the ten row blocks is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- What point t writes back is block t of max(a, 0) + b of the arrays the region finds. -/
theorem flushed_eq (c : Dev nD) (t : Fin cfg1.N) :
    (dat1 V c).flushed 2 t = ((cfg1.win 2).blk t).view.read (Elt F) (reluAdd (V c main_v19) (V c main_v6)) := by
  show (cfg1.win 2).cut (grid1.coords t) ((dat1 V c).after 2 t) = _
  rw [after1_2]
  unfold out1_2
  rw [View.canon_unit_zero hz]
  simp only [View.ld_unit_zero (S := S5000x128) hz]
  rw [BlockProduct.relu_add1]
  obtain ⟨e0, e1, e2, e3, e4, e5⟩ := idx_facts t
  funext j
  show FloatOps.addf (FloatOps.maximumf (V c main_v19 (((cfg1.win 0).blk t).view.emb j)) (Scalar.ofBits .f32 0x00000000#32)) (V c main_v6 (((cfg1.win 1).blk t).view.emb j))
    = FloatOps.addf (FloatOps.maximumf (V c main_v19 (((cfg1.win 2).blk t).view.emb j)) (Scalar.ofBits .f32 0x00000000#32)) (V c main_v6 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 128 + 1 * (j 1).val = win1_2.index t (1 : Fin 2) * 128 + 1 * (j 1).val; omega
  rw [h0, h1]

/-- An entry of the result array lies in point t's block exactly when its row and column lie in the block's ranges. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v20).slice (win1_2.rect t)).set ↔ _
  rw [View.set_slice_whole, Rect.mem_set_unit]
  exact Iff.rfl

/-- The ten blocks tile the array: row r lies in block r / 5000. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region its result array holds max(a, 0) + b of the two arrays it read. -/
theorem final (c : Dev nD) : (dat1 V c).arrAt 2 cfg1.N = reluAdd (V c main_v19) (V c main_v6) :=
  (dat1 V c).arrAt_eq_of_cover 2 (reluAdd (V c main_v19) (V c main_v6)) (fun t _ => flushed_eq V c t) cover

end Cert.KernelIdeal.Region1

end
-- ==== Proof.Region2.lean ====
/-
  The third pallas_call (ten row blocks of h against the whole second-layer weights) leaves in its result array, at
  entry (r, q), the sum over the 128 depths k of h (r, k) · w (k, q) of the two whole arrays it reads.

  Grid point t reads rows 5000 t … 5000 t + 4999 of h and the whole of w, and writes the same rows of the result; so
  what point t writes back is block t of that one whole-array function, and the ten blocks tile the 50000 rows.
-/
import proofs.«164993_j15195594293517_1_alg».proof.Proof.Gen.KernelIdeal.Frame
import proofs.«164993_j15195594293517_1_alg».proof.Proof.BlockProduct
import Idealize.ShloMosaic.Lib.Pipeline.Value

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Row r of h at depth k. -/
abbrev hAt (i : S50000x128.Idx) (k : Fin 128) : S50000x128.Idx := fun a => match a with
  | ⟨0, _⟩ => ⟨(i 0).val, (i 0).isLt⟩
  | ⟨1, _⟩ => ⟨k.val, k.isLt⟩
/-- Column q of the weights at depth k. -/
abbrev wAt (i : S50000x128.Idx) (k : Fin 128) : S128x128.Idx := fun a => match a with
  | ⟨0, _⟩ => ⟨k.val, k.isLt⟩
  | ⟨1, _⟩ => ⟨(i 1).val, (i 1).isLt⟩

/-- h · w over the whole arrays, entry by entry. -/
def product (h : (⟨S50000x128, .f32⟩ : BufTy).Contents (Elt Ideal)) (w : (⟨S128x128, .f32⟩ : BufTy).Contents (Elt Ideal)) :
    (⟨S50000x128, .f32⟩ : BufTy).Contents (Elt Ideal) :=
  fun i => ∑ k : Fin 128, h (hAt i k) * w (wAt i k)

/-- The row windows move together and the weights' window stays at block (0, 0). -/
theorem idx_facts : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (0 : Fin 2) ≤ 9 ∧ win2_2.index t (1 : Fin 2) = 0 :=
  (by decide +kernel : ∀ t : Fin grid2.N, _)

/-- Every one of the ten row blocks is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What point t writes back is block t of h · w of the arrays the region finds. -/
theorem flushed_eq (c : Dev nD) (t : Fin cfg2.N) :
    (dat2 V c).flushed 2 t = ((cfg2.win 2).blk t).view.read (Elt Ideal) (product (V c main_v20) (V c main_arg3)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨e0, e1, e2, e3, e4, e5⟩ := idx_facts t
  funext j
  show k2_pay1 (F := Ideal) (iblk2 V c 0 t) (iblk2 V c 1 t) j
    = product (V c main_v20) (V c main_arg3) (((cfg2.win 2).blk t).view.emb j)
  rw [BlockProduct.linear_apply]
  unfold product
  have hh : ∀ k : Fin 128, (iblk2 V c 0 t : Vec Ideal S5000x128 .f32) (BlockProduct.row128 j k)
      = V c main_v20 (hAt (((cfg2.win 2).blk t).view.emb j) k) := fun k => by
    unfold iblk2
    rw [View.read_apply]
    show V c main_v20 (((cfg2.win 0).blk t).view.emb (BlockProduct.row128 j k)) = _
    congr 1
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hw : ∀ k : Fin 128, (iblk2 V c 1 t : Vec Ideal S128x128 .f32) (BlockProduct.col128 j k)
      = V c main_arg3 (wAt (((cfg2.win 2).blk t).view.emb j) k) := fun k => by
    unfold iblk2
    rw [View.read_apply]
    show V c main_arg3 (((cfg2.win 1).blk t).view.emb (BlockProduct.col128 j k)) = _
    congr 1
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  rw [Finset.sum_congr rfl fun k _ => by rw [hh k, hw k]]

/-- An entry of the result array lies in point t's block exactly when its row and column lie in the block's ranges. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v21).slice (win2_2.rect t)).set ↔ _
  rw [View.set_slice_whole, Rect.mem_set_unit]
  exact Iff.rfl

/-- The ten blocks tile the array: row r lies in block r / 5000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region its result array holds h · w of the two arrays it read. -/
theorem final (c : Dev nD) : (dat2 V c).arrAt 2 cfg2.N = product (V c main_v20) (V c main_arg3) :=
  (dat2 V c).arrAt_eq_of_cover 2 (product (V c main_v20) (V c main_arg3)) (fun t _ => flushed_eq V c t) cover

end Cert.KernelIdeal.Region2

end
-- ==== Proof.Region3.lean ====
/-
  The fourth pallas_call (again the positive part of the first array plus the second, over ten row blocks) leaves, in
  its result array, max(a, 0) + b of the two whole arrays it reads, entry by entry.

  Every grid point t reads rows 5000 t … 5000 t + 4999 of both operands and writes the same rows of the result: the three
  windows move together, so what point t writes back is block t of the one whole-array function, and the ten blocks tile
  the 50000 rows.
-/
import proofs.«164993_j15195594293517_1_alg».proof.Proof.Gen.KernelIdeal.Frame
import proofs.«164993_j15195594293517_1_alg».proof.Proof.BlockProduct
import Idealize.ShloMosaic.Lib.Pipeline.Value

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- max(a, 0) + b over whole [50000, 128] arrays. -/
abbrev reluAdd (a b : S50000x128.Idx → Elt F .f32) : S50000x128.Idx → Elt F .f32 :=
  fun i => FloatOps.addf (FloatOps.maximumf (a i) (Scalar.ofBits .f32 0x00000000#32)) (b i)

/-- The three windows' block indices agree at every grid point, and the result's block index is (t, 0). -/
theorem idx_facts : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) ≤ 9 ∧ win3_2.index t (1 : Fin 2) = 0 :=
  (by decide +kernel : ∀ t : Fin grid3.N, _)

/-- Every one of the ten row blocks is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- What point t writes back is block t of max(a, 0) + b of the arrays the region finds. -/
theorem flushed_eq (c : Dev nD) (t : Fin cfg3.N) :
    (dat3 V c).flushed 2 t = ((cfg3.win 2).blk t).view.read (Elt F) (reluAdd (V c main_v34) (V c main_v20)) := by
  show (cfg3.win 2).cut (grid3.coords t) ((dat3 V c).after 2 t) = _
  rw [after3_2]
  unfold out3_2
  rw [View.canon_unit_zero hz]
  simp only [View.ld_unit_zero (S := S5000x128) hz]
  rw [BlockProduct.relu_add3]
  obtain ⟨e0, e1, e2, e3, e4, e5⟩ := idx_facts t
  funext j
  show FloatOps.addf (FloatOps.maximumf (V c main_v34 (((cfg3.win 0).blk t).view.emb j)) (Scalar.ofBits .f32 0x00000000#32)) (V c main_v20 (((cfg3.win 1).blk t).view.emb j))
    = FloatOps.addf (FloatOps.maximumf (V c main_v34 (((cfg3.win 2).blk t).view.emb j)) (Scalar.ofBits .f32 0x00000000#32)) (V c main_v20 (((cfg3.win 2).blk t).view.emb j))
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb j = ((cfg3.win 2).blk t).view.emb j := by
    funext a; apply Fin.ext
    match a with
    | ⟨0, _⟩ => show win3_1.index t (0 : Fin 2) * 5000 + 1 * (j 0).val = win3_2.index t (0 : Fin 2) * 5000 + 1 * (j 0).val; omega
    | ⟨1, _⟩ => show win3_1.index t (1 : Fin 2) * 128 + 1 * (j 1).val = win3_2.index t (1 : Fin 2) * 128 + 1 * (j 1).val; omega
  rw [h0, h1]

/-- An entry of the result array lies in point t's block exactly when its row and column lie in the block's ranges. -/
theorem mem_blk (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v35).slice (win3_2.rect t)).set ↔ _
  rw [View.set_slice_whole, Rect.mem_set_unit]
  exact Iff.rfl

/-- The ten blocks tile the array: row r lies in block r / 5000. -/
theorem cover (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the region its result array holds max(a, 0) + b of the two arrays it read. -/
theorem final (c : Dev nD) : (dat3 V c).arrAt 2 cfg3.N = reluAdd (V c main_v34) (V c main_v20) :=
  (dat3 V c).arrAt_eq_of_cover 2 (reluAdd (V c main_v34) (V c main_v20)) (fun t _ => flushed_eq V c t) cover

end Cert.KernelIdeal.Region3

end
-- ==== Proof.Walk.lean ====
/-
  The result array, followed through @main from the launch to the return.

  @main is five host operations (the two weight matrices laid side by side, a zero vector and the bias laid end to end and
  reshaped to one row), the first pallas_call, eighteen host operations (the two column halves of its result; the first half
  gathered along the wrapped column indices, scaled by the edge weights and summed into the rows the row indices name),
  the second and third pallas_calls, sixteen host operations (the same gather, scaling and sum of the third call's result)
  and the fourth pallas_call. At each boundary the buffers a later step reads are named here as functions of the
  arguments; the four pallas_calls contribute their whole-array functions, the host stretches their printed operations.
  The gather-scale-sum chain is carried as ONE function of its operand, never opened.
-/
import proofs.«164993_j15195594293517_1_alg».proof.Proof.Gen.KernelIdeal.Frame
import proofs.«164993_j15195594293517_1_alg».proof.Proof.Region0
import proofs.«164993_j15195594293517_1_alg».proof.Proof.Region1
import proofs.«164993_j15195594293517_1_alg».proof.Proof.Region2
import proofs.«164993_j15195594293517_1_alg».proof.Proof.Region3
import Idealize.ShloMosaic.Lib.StableHlo.Run

set_option maxRecDepth 16384

noncomputable section

namespace Cert.KernelIdeal.Walk

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The sparse product with the adjacency: the operand's rows gathered along the column indices (a negative index
    wrapped once by the row count), scaled edge by edge, and summed into the rows the row indices name. -/
def spmm (row col : IVec S800000 32) (ew : FVec Ideal S800000 .f32) (s : FVec Ideal S50000x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 row)
    (mulf
      (Host.gather gather_S50000x128_S800000x1_S800000x128_1_0_n_n_0_1_1128 s
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col)))
      (broadcastInDim S800000x128 ![0, 1] bcast_S800000x1_S800000x128_0_1
        (broadcastInDim S800000x1 ![0] bcast_S800000_S800000x1_0 ew)))

/-- The two weight matrices side by side. -/
abbrev wcat (w1 wres : FVec Ideal S64x128 .f32) : FVec Ideal S64x256 .f32 :=
  concatenate S64x256 1 [⟨S64x128, w1⟩, ⟨S64x128, wres⟩] concatenates_S64x128_S64x128_S64x256_d1
/-- 128 zeros and then the bias, as one row. -/
abbrev bcat (bres : FVec Ideal S128 .f32) : FVec Ideal S1x256 .f32 :=
  shapeCast S1x256 (concatenate S256 0 [⟨S128, broadcastInDim S128 ![] bcast_S_S128 (constant (F := Ideal) S_ .f32 0x00000000#32)⟩, ⟨S128, bres⟩]
    concatenates_S128_S128_S256_d0) shapeCasts_S256_S1x256
/-- Columns 0 … 127 of a [50000, 256] array. -/
abbrev colsLo (y : FVec Ideal S50000x256 .f32) : FVec Ideal S50000x128 .f32 :=
  extractStridedSlice S50000x128 ![0, 0] y slices_S50000x256_S50000x128_0_0
/-- Columns 128 … 255 of a [50000, 256] array. -/
abbrev colsHi (y : FVec Ideal S50000x256 .f32) : FVec Ideal S50000x128 .f32 :=
  extractStridedSlice S50000x128 ![0, 128] y slices_S50000x256_S50000x128_0_128

/-! ## The arguments no step writes: at every boundary they hold their launch contents -/

set_option maxHeartbeats 2000000 in
/-- The edge weights, the second-layer weights and the two index vectors are written by no host operation and are no
    pallas_call's result up to the third call's entry, so each boundary up to there finds them as launched. -/
theorem kept (c : Dev nD) (b : Ref sig .tc) (hb : b = main_arg1 ∨ b = main_arg3 ∨ b = main_arg6 ∨ b = main_arg7) :
    W2 m ρ c (Proc.devRef .tc b) = m ((c : Thread nD τ).loc b)
    ∧ W4 m ρ c (Proc.devRef .tc b) = m ((c : Thread nD τ).loc b) := by
  have h1 : W1 m ρ c (Proc.devRef .tc b) = m ((c : Thread nD τ).loc b) := by
    rcases hb with rfl | rfl | rfl | rfl <;>
      (show StableHlo.after hostOps0 (W0 m ρ c) _ = _; after_results_simp)
  have h2 : W2 m ρ c (Proc.devRef .tc b) = m ((c : Thread nD τ).loc b) :=
    (W2_of_ne m ρ c b (by rcases hb with rfl | rfl | rfl | rfl <;> decide)).trans h1
  have h3 : W3 m ρ c (Proc.devRef .tc b) = m ((c : Thread nD τ).loc b) := by
    rcases hb with rfl | rfl | rfl | rfl <;>
      (show StableHlo.after hostOps1 (W2 m ρ c) _ = _; after_results_simp; exact h2)
  have h4 : W4 m ρ c (Proc.devRef .tc b) = m ((c : Thread nD τ).loc b) :=
    (W4_of_ne m ρ c b (by rcases hb with rfl | rfl | rfl | rfl <;> decide)).trans h3
  exact ⟨h2, h4⟩

/-- The edge weights and the two index vectors are no window of the third call either. -/
theorem kept5 (c : Dev nD) (b : Ref sig .tc) (hb : b = main_arg1 ∨ b = main_arg6 ∨ b = main_arg7) :
    W5 m ρ c (Proc.devRef .tc b) = m ((c : Thread nD τ).loc b) :=
  (W5_of_ne m ρ c b (by rcases hb with rfl | rfl | rfl <;> decide)).trans
    (kept m ρ c b (by rcases hb with rfl | rfl | rfl <;> simp)).2

/-! ## Up to the first pallas_call -/

theorem at1_x (c : Dev nD) : W1 m ρ c (Proc.devRef .tc main_arg0) = m ((c : Thread nD τ).loc main_arg0) := by
  show StableHlo.after hostOps0 (W0 m ρ c) _ = _; after_results <;> rfl

theorem at1_w (c : Dev nD) : W1 m ρ c (Proc.devRef .tc main_v0)
    = wcat (m ((c : Thread nD τ).loc main_arg2)) (m ((c : Thread nD τ).loc main_arg4)) := by
  show StableHlo.after hostOps0 (W0 m ρ c) _ = _; after_results <;> rfl

theorem at1_b (c : Dev nD) : W1 m ρ c (Proc.devRef .tc main_v3) = bcat (m ((c : Thread nD τ).loc main_arg5)) := by
  show StableHlo.after hostOps0 (W0 m ρ c) _ = _; after_results <;> rfl

/-- The first pallas_call's result: x against the two weight matrices side by side, plus the zero-and-bias row. -/
abbrev layer1 (c : Dev nD) : FVec Ideal S50000x256 .f32 :=
  Region0.affine (m ((c : Thread nD τ).loc main_arg0))
    (wcat (m ((c : Thread nD τ).loc main_arg2)) (m ((c : Thread nD τ).loc main_arg4)))
    (bcat (m ((c : Thread nD τ).loc main_arg5)))

theorem at2_y (c : Dev nD) : W2 m ρ c (Proc.devRef .tc main_v4) = layer1 m c := by
  refine (W2_arr m ρ c 3).trans ((Region0.final (V1 m ρ) c).trans ?_)
  show Region0.affine (W1 m ρ c (Proc.devRef .tc main_arg0)) (W1 m ρ c (Proc.devRef .tc main_v0)) (W1 m ρ c (Proc.devRef .tc main_v3)) = _
  rw [at1_x, at1_w, at1_b]

/-! ## Up to the second pallas_call -/

/-- The sparse product of this program's adjacency. -/
abbrev adj (c : Dev nD) (s : FVec Ideal S50000x128 .f32) : FVec Ideal S50000x128 .f32 :=
  spmm (m ((c : Thread nD τ).loc main_arg6)) (m ((c : Thread nD τ).loc main_arg7)) (m ((c : Thread nD τ).loc main_arg1)) s

set_option maxHeartbeats 2000000 in
theorem at3_agg (c : Dev nD) : W3 m ρ c (Proc.devRef .tc main_v19) = adj m c (colsLo (layer1 m c)) := by
  show StableHlo.after hostOps1 (W2 m ρ c) _ = _
  after_results_simp
  rw [at2_y, (kept m ρ c main_arg1 (.inl rfl)).1, (kept m ρ c main_arg6 (.inr (.inr (.inl rfl)))).1,
    (kept m ρ c main_arg7 (.inr (.inr (.inr rfl)))).1]
  rfl

set_option maxHeartbeats 2000000 in
theorem at3_res (c : Dev nD) : W3 m ρ c (Proc.devRef .tc main_v6) = colsHi (layer1 m c) := by
  show StableHlo.after hostOps1 (W2 m ρ c) _ = _
  after_results_simp
  rw [at2_y]

/-- The hidden layer: the positive part of the aggregated first half plus the second half. -/
abbrev hidden (c : Dev nD) : FVec Ideal S50000x128 .f32 :=
  Region1.reluAdd (F := Ideal) (adj m c (colsLo (layer1 m c))) (colsHi (layer1 m c))

theorem at4_h (c : Dev nD) : W4 m ρ c (Proc.devRef .tc main_v20) = hidden m c := by
  refine (W4_arr m ρ c 2).trans ((Region1.final (V3 m ρ) c).trans ?_)
  show Region1.reluAdd (F := Ideal) (W3 m ρ c (Proc.devRef .tc main_v19)) (W3 m ρ c (Proc.devRef .tc main_v6)) = _
  rw [at3_agg, at3_res]

/-! ## The third pallas_call -/

theorem at5_hw (c : Dev nD) : W5 m ρ c (Proc.devRef .tc main_v21)
    = Region2.product (hidden m c) (m ((c : Thread nD τ).loc main_arg3)) := by
  refine (W5_arr m ρ c 2).trans ((Region2.final (V4 m ρ) c).trans ?_)
  show Region2.product (W4 m ρ c (Proc.devRef .tc main_v20)) (W4 m ρ c (Proc.devRef .tc main_arg3)) = _
  rw [at4_h, (kept m ρ c main_arg3 (.inr (.inl rfl))).2]

/-- The third call reads the hidden layer through an input window and leaves it as it was. -/
theorem at5_h (c : Dev nD) : W5 m ρ c (Proc.devRef .tc main_v20) = hidden m c :=
  (W5_arr m ρ c 0).trans (((dat2 (V4 m ρ) c).arrAt_in 0 rfl _).trans ((A_eq2 (V4 m ρ) c 0).trans (at4_h m ρ c)))

/-! ## Up to the fourth pallas_call, and the result -/

set_option maxHeartbeats 2000000 in
theorem at6_agg (c : Dev nD) : W6 m ρ c (Proc.devRef .tc main_v34)
    = adj m c (Region2.product (hidden m c) (m ((c : Thread nD τ).loc main_arg3))) := by
  show StableHlo.after hostOps3 (W5 m ρ c) _ = _
  after_results_simp
  rw [at5_hw, kept5 m ρ c main_arg1 (.inl rfl), kept5 m ρ c main_arg6 (.inr (.inl rfl)),
    kept5 m ρ c main_arg7 (.inr (.inr rfl))]
  rfl

set_option maxHeartbeats 2000000 in
theorem at6_h (c : Dev nD) : W6 m ρ c (Proc.devRef .tc main_v20) = hidden m c := by
  show StableHlo.after hostOps3 (W5 m ρ c) _ = _
  after_results_simp
  exact at5_h m ρ c

/-- What @main returns, as a function of its arguments. -/
abbrev result (c : Dev nD) : FVec Ideal S50000x128 .f32 :=
  Region3.reluAdd (F := Ideal) (adj m c (Region2.product (hidden m c) (m ((c : Thread nD τ).loc main_arg3)))) (hidden m c)

theorem at7_out (c : Dev nD) : W7 m ρ c (Proc.devRef .tc main_v35) = result m c := by
  refine (W7_arr m ρ c 2).trans ((Region3.final (V6 m ρ) c).trans ?_)
  show Region3.reluAdd (F := Ideal) (W6 m ρ c (Proc.devRef .tc main_v34)) (W6 m ρ c (Proc.devRef .tc main_v20)) = _
  rw [at6_agg, at6_h]

end Cert.KernelIdeal.Walk

end
-- ==== Proof.RefSide.lean ====
/-
  The reference, named piece by piece at the extended reals.

  The reference computes  out = relu (A · (h · W2)) + h  with  h = relu (A · (x · W1)) + (x · Wres + bres),  where A · s is
  the sparse product with the adjacency (rows of s gathered along the wrapped column indices, scaled by the edge weights,
  summed into the rows the row indices name), relu is the maximum with a zero array, and the bias is laid along every row.
  Its two dense products are read here at one entry as sums over the contracted axis; the sparse product is carried as one
  function and never opened.
-/
import proofs.«164993_j15195594293517_1_alg».proof.Proof.Gen.ReferenceIdeal.Run
import proofs.«164993_j15195594293517_1_alg».proof.Proof.Gen.ReferenceIdeal.Read

noncomputable section

namespace Cert.ReferenceIdeal.Side

open Cert.ReferenceIdeal Cert.ReferenceIdeal.Gen Cert.ReferenceIdeal.Read Idealize.ShloMosaic Idealize.ShloMosaic.TcCoe Idealize.SL.Sem

/-- The sparse product with the adjacency. -/
def spmm (row col : IVec S800000 32) (ew : FVec Ideal S800000 .f32) (s : FVec Ideal S50000x128 .f32) : FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 row)
    (mulf
      (Host.gather gather_S50000x128_S800000x1_S800000x128_1_0_n_n_0_1_1128 s
        (broadcastInDim S800000x1 ![0] bcast_S800000_S800000x1_0
          (select (cmpi .slt col (broadcastInDim S800000 ![] bcast_S_S800000 (constantI S_ 32 0#32)))
            (addi col (broadcastInDim S800000 ![] bcast_S_S800000 (constantI S_ 32 50000#32))) col)))
      (broadcastInDim S800000x128 ![0, 1] bcast_S800000x1_S800000x128_0_1
        (broadcastInDim S800000x1 ![0] bcast_S800000_S800000x1_0 ew)))

/-- The maximum with a zero array. -/
abbrev relu (a : FVec Ideal S50000x128 .f32) : FVec Ideal S50000x128 .f32 :=
  maximumf a (broadcastInDim S50000x128 ![] bcast_S_S50000x128 (constant (F := Ideal) S_ .f32 0x00000000#32))
/-- The bias laid along every row. -/
abbrev biasRows (bres : FVec Ideal S128 .f32) : FVec Ideal S50000x128 .f32 :=
  broadcastInDim S50000x128 ![0, 1] bcast_S1x128_S50000x128_0_1 (broadcastInDim S1x128 ![1] bcast_S128_S1x128_1 bres)
/-- x against a [64, 128] weight matrix. -/
abbrev mm1 (x : FVec Ideal S50000x64 .f32) (w : FVec Ideal S64x128 .f32) : FVec Ideal S50000x128 .f32 :=
  Host.dotGeneral (F := Ideal) dot_S50000x64_S64x128_S50000x128_1_0_0_1_n_n none x w
/-- The hidden layer against the [128, 128] weight matrix. -/
abbrev mm2 (h : FVec Ideal S50000x128 .f32) (w : FVec Ideal S128x128 .f32) : FVec Ideal S50000x128 .f32 :=
  Host.dotGeneral (F := Ideal) dot_S50000x128_S128x128_S50000x128_1_0_0_1_n_n none h w

/-- The hidden layer. -/
def hidden (x : FVec Ideal S50000x64 .f32) (ew : FVec Ideal S800000 .f32) (w1 wres : FVec Ideal S64x128 .f32)
    (bres : FVec Ideal S128 .f32) (row col : IVec S800000 32) : FVec Ideal S50000x128 .f32 :=
  addf (relu (spmm row col ew (mm1 x w1))) (addf (mm1 x wres) (biasRows bres))

/-- What the reference returns. -/
def result (x : FVec Ideal S50000x64 .f32) (ew : FVec Ideal S800000 .f32) (w1 : FVec Ideal S64x128 .f32) (w2 : FVec Ideal S128x128 .f32)
    (wres : FVec Ideal S64x128 .f32) (bres : FVec Ideal S128 .f32) (row col : IVec S800000 32) : FVec Ideal S50000x128 .f32 :=
  addf (relu (spmm row col ew (mm2 (hidden x ew w1 wres bres row col) w2))) (hidden x ew w1 wres bres row col)

/-- Entry (r, q) of x · w: the sum over the 64 depths. -/
theorem mm1_apply (x : FVec Ideal S50000x64 .f32) (w : FVec Ideal S64x128 .f32) (i : S50000x128.Idx) :
    mm1 x w i = ∑ k : Fin 64, x (lidx_main_v0 i k) * w (ridx_main_v0 i k) :=
  val_main_v0_apply x w i

/-- Entry (r, q) of h · w: the sum over the 128 depths. -/
theorem mm2_apply (h : FVec Ideal S50000x128 .f32) (w : FVec Ideal S128x128 .f32) (i : S50000x128.Idx) :
    mm2 h w i = ∑ k : Fin 128, h (lidx_main_v21 i k) * w (ridx_main_v21 i k) := by
  simp only [mm2, Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = lidx_main_v21 i k := funext fun a => Fin.ext (by
    match a with
    | ⟨0, _⟩ => exact lhs_main_v21_0 _ _
    | ⟨1, _⟩ => exact (lhs_main_v21_1 _ _).trans hk)
  have er : dot_S50000x128_S128x128_S50000x128_1_0_0_1_n_n.rhsIdx i ((ValueIdx.contrEquiv1 dot_S50000x128_S128x128_S50000x128_1_0_0_1_n_n 128 rfl rfl).symm k) = ridx_main_v21 i k := funext fun a => Fin.ext (by
    match a with
    | ⟨0, _⟩ => exact (rhs_main_v21_0 _ _).trans hk
    | ⟨1, _⟩ => exact rhs_main_v21_1 _ _)
  rw [el, er]

/-- Entry (r, q) of the bias laid along the rows: the bias at q. -/
theorem biasRows_apply (bres : FVec Ideal S128 .f32) (i : S50000x128.Idx) :
    biasRows bres i = bres (idx_main_v17 (idx_main_v18 i)) :=
  (val_main_v18_apply (F := Ideal) bres i).trans (val_main_v17_apply (F := Ideal) bres _)

end Cert.ReferenceIdeal.Side

end
-- ==== Proof.Bridge.lean ====
/-
  The kernel's result and the reference's result are one function of the arguments.

  The first pallas_call multiplies x by the two weight matrices laid side by side and adds 128 zeros and then the bias:
  its first 128 columns are x · W1 + 0 = x · W1 and its last 128 columns are x · Wres + bres, entry by entry (a + 0 = a on
  the extended reals, so nothing is asked of the inputs). The third pallas_call is h · W2. The two pointwise calls are
  the maximum with zero plus the second operand, which is the reference's maximum with a zero array plus the second operand.
  The sparse product with the adjacency is the same chain of host operations in both programs, applied to operands that
  are now known equal; it is compared as one function.
-/
import proofs.«164993_j15195594293517_1_alg».proof.Proof.Walk
import proofs.«164993_j15195594293517_1_alg».proof.Proof.RefSide
import Idealize.ShloMosaic.Lib.Pipeline.Value

set_option maxRecDepth 16384

noncomputable section

namespace Cert.Bridge

open Idealize.ShloMosaic Idealize.ShloMosaic.TcCoe Idealize.SL.Sem

/-! ## The shared pieces -/

/-- The two programs print the same sparse product. -/
theorem spmm_eq (row col : IVec Cert.KernelIdeal.S800000 32) (ew : FVec Ideal Cert.KernelIdeal.S800000 .f32)
    (s : FVec Ideal Cert.KernelIdeal.S50000x128 .f32) :
    Cert.KernelIdeal.Walk.spmm row col ew s = Cert.ReferenceIdeal.Side.spmm row col ew s := rfl

/-- The second pallas_call's function is the reference's maximum with a zero array plus the second operand. -/
theorem reluAdd1_eq (a b : FVec Ideal Cert.KernelIdeal.S50000x128 .f32) :
    Cert.KernelIdeal.Region1.reluAdd (F := Ideal) a b = addf (Cert.ReferenceIdeal.Side.relu a) b :=
  funext fun i => rfl

/-- The fourth pallas_call's likewise. -/
theorem reluAdd3_eq (a b : FVec Ideal Cert.KernelIdeal.S50000x128 .f32) :
    Cert.KernelIdeal.Region3.reluAdd (F := Ideal) a b = addf (Cert.ReferenceIdeal.Side.relu a) b :=
  funext fun i => rfl

/-! ## The first layer's two halves -/

/-- Entry (r, q) of the first 128 columns is entry (r, q) of the [50000, 256] array. -/
abbrev loIdx (i : Cert.KernelIdeal.S50000x128.Idx) : Cert.KernelIdeal.S50000x256.Idx := fun a => match a with
  | ⟨0, _⟩ => ⟨(i 0).val, (i 0).isLt⟩
  | ⟨1, _⟩ => ⟨(i 1).val, Nat.lt_of_lt_of_le (i 1).isLt (show (128 : Nat) ≤ 256 by decide)⟩
/-- Entry (r, q) of the last 128 columns is entry (r, q + 128) of the [50000, 256] array. -/
abbrev hiIdx (i : Cert.KernelIdeal.S50000x128.Idx) : Cert.KernelIdeal.S50000x256.Idx := fun a => match a with
  | ⟨0, _⟩ => ⟨(i 0).val, (i 0).isLt⟩
  | ⟨1, _⟩ => ⟨(i 1).val + 128, Nat.add_lt_add_right (i 1).isLt 128⟩

/-- The zero-and-bias row at a column below 128 is zero. -/
theorem bcat_lo (bres : FVec Ideal Cert.KernelIdeal.S128 .f32) (j : Cert.KernelIdeal.S1x256.Idx) (hj : (j 1).val < 128) :
    Cert.KernelIdeal.Walk.bcat bres j = 0 := by
  have h0 : (j 0).val = 0 := by have : (j 0).val < 1 := (j 0).isLt; omega
  let k : Cert.KernelIdeal.S256.Idx := fun a => match a with | ⟨0, _⟩ => ⟨(j 1).val, (j 1).isLt⟩
  let k' : Cert.KernelIdeal.S128.Idx := fun a => match a with | ⟨0, _⟩ => ⟨(j 1).val, hj⟩
  refine (shapeCast_apply _ Cert.KernelIdeal.Gen.shapeCasts_S256_S1x256 j k ?_).trans ?_
  · rw [Shape.rowMajor_val_one, Shape.rowMajor_val_two]
    show (j 1).val = (j 0).val * 256 + (j 1).val
    omega
  · refine (concatenate_pair_apply_left (t := Cert.KernelIdeal.S256) (s₁ := Cert.KernelIdeal.S128) (s₂ := Cert.KernelIdeal.S128)
      (0 : Fin 1) _ bres Cert.KernelIdeal.Gen.concatenates_S128_S128_S256_d0 k rfl k' (fun b => match b with | ⟨0, _⟩ => rfl)).trans ?_
    show Ideal.ofBits .f32 0x00000000#32 = 0
    exact Ideal.ofBits_zero_f32

/-- The zero-and-bias row at column q + 128 is the bias at q. -/
theorem bcat_hi (bres : FVec Ideal Cert.KernelIdeal.S128 .f32) (j : Cert.KernelIdeal.S1x256.Idx) (q : Cert.KernelIdeal.S128.Idx)
    (hj : (j 1).val = (q 0).val + 128) : Cert.KernelIdeal.Walk.bcat bres j = bres q := by
  have h0 : (j 0).val = 0 := by have : (j 0).val < 1 := (j 0).isLt; omega
  let k : Cert.KernelIdeal.S256.Idx := fun a => match a with | ⟨0, _⟩ => ⟨(j 1).val, (j 1).isLt⟩
  refine (shapeCast_apply _ Cert.KernelIdeal.Gen.shapeCasts_S256_S1x256 j k ?_).trans ?_
  · rw [Shape.rowMajor_val_one, Shape.rowMajor_val_two]
    show (j 1).val = (j 0).val * 256 + (j 1).val
    omega
  · exact concatenate_pair_apply_right (t := Cert.KernelIdeal.S256) (s₁ := Cert.KernelIdeal.S128) (s₂ := Cert.KernelIdeal.S128)
      (0 : Fin 1) _ bres Cert.KernelIdeal.Gen.concatenates_S128_S128_S256_d0 k rfl rfl q
      (fun b hb => match b with | ⟨0, _⟩ => absurd rfl hb)
      (by show (q 0).val + 128 = (j 1).val; omega)

/-- The first 128 columns of the first pallas_call's result are x · W1. -/
theorem lo_eq (x : FVec Ideal Cert.KernelIdeal.S50000x64 .f32) (w1 wres : FVec Ideal Cert.KernelIdeal.S64x128 .f32)
    (bres : FVec Ideal Cert.KernelIdeal.S128 .f32) :
    Cert.KernelIdeal.Walk.colsLo (Cert.KernelIdeal.Region0.affine x (Cert.KernelIdeal.Walk.wcat w1 wres) (Cert.KernelIdeal.Walk.bcat bres))
      = Cert.ReferenceIdeal.Side.mm1 x w1 := by
  funext i
  refine (extractStridedSlice_apply (s := Cert.KernelIdeal.S50000x256) (t := Cert.KernelIdeal.S50000x128) ![0, 0] _
    Cert.KernelIdeal.Gen.slices_S50000x256_S50000x128_0_0 i (loIdx i)
    (fun a => match a with | ⟨0, _⟩ => (Nat.zero_add _).symm | ⟨1, _⟩ => (Nat.zero_add _).symm)).trans ?_
  rw [Cert.ReferenceIdeal.Side.mm1_apply]
  show (∑ k : Fin 64, x (Cert.KernelIdeal.Region0.xAt (loIdx i) k)
        * Cert.KernelIdeal.Walk.wcat w1 wres (Cert.KernelIdeal.Region0.wAt (loIdx i) k))
      + Cert.KernelIdeal.Walk.bcat bres (Cert.KernelIdeal.Region0.bAt (loIdx i)) = _
  rw [bcat_lo bres _ (show (i 1).val < 128 from (i 1).isLt), add_zero]
  refine Finset.sum_congr rfl fun k _ => ?_
  have hw : Cert.KernelIdeal.Walk.wcat w1 wres (Cert.KernelIdeal.Region0.wAt (loIdx i) k) = w1 (Cert.ReferenceIdeal.Read.ridx_main_v0 i k) :=
    concatenate_pair_apply_left (t := Cert.KernelIdeal.S64x256) (s₁ := Cert.KernelIdeal.S64x128) (s₂ := Cert.KernelIdeal.S64x128)
      (1 : Fin 2) w1 wres Cert.KernelIdeal.Gen.concatenates_S64x128_S64x128_S64x256_d1 _ rfl _
      (fun b => match b with | ⟨0, _⟩ => rfl | ⟨1, _⟩ => rfl)
  rw [hw]
  rfl

/-- The last 128 columns of the first pallas_call's result are x · Wres plus the bias laid along the rows. -/
theorem hi_eq (x : FVec Ideal Cert.KernelIdeal.S50000x64 .f32) (w1 wres : FVec Ideal Cert.KernelIdeal.S64x128 .f32)
    (bres : FVec Ideal Cert.KernelIdeal.S128 .f32) :
    Cert.KernelIdeal.Walk.colsHi (Cert.KernelIdeal.Region0.affine x (Cert.KernelIdeal.Walk.wcat w1 wres) (Cert.KernelIdeal.Walk.bcat bres))
      = addf (Cert.ReferenceIdeal.Side.mm1 x wres) (Cert.ReferenceIdeal.Side.biasRows bres) := by
  funext i
  refine (extractStridedSlice_apply (s := Cert.KernelIdeal.S50000x256) (t := Cert.KernelIdeal.S50000x128) ![0, 128] _
    Cert.KernelIdeal.Gen.slices_S50000x256_S50000x128_0_128 i (hiIdx i)
    (fun a => match a with | ⟨0, _⟩ => (Nat.zero_add _).symm | ⟨1, _⟩ => Nat.add_comm _ _)).trans ?_
  rw [ValueIdx.addf_apply, Cert.ReferenceIdeal.Side.mm1_apply, Cert.ReferenceIdeal.Side.biasRows_apply]
  show (∑ k : Fin 64, x (Cert.KernelIdeal.Region0.xAt (hiIdx i) k)
        * Cert.KernelIdeal.Walk.wcat w1 wres (Cert.KernelIdeal.Region0.wAt (hiIdx i) k))
      + Cert.KernelIdeal.Walk.bcat bres (Cert.KernelIdeal.Region0.bAt (hiIdx i)) = _
  rw [bcat_hi bres _ (Cert.ReferenceIdeal.Read.idx_main_v17 (Cert.ReferenceIdeal.Read.idx_main_v18 i)) rfl]
  refine congrArg (· + _) (Finset.sum_congr rfl fun k _ => ?_)
  have hw : Cert.KernelIdeal.Walk.wcat w1 wres (Cert.KernelIdeal.Region0.wAt (hiIdx i) k) = wres (Cert.ReferenceIdeal.Read.ridx_main_v0 i k) :=
    concatenate_pair_apply_right (t := Cert.KernelIdeal.S64x256) (s₁ := Cert.KernelIdeal.S64x128) (s₂ := Cert.KernelIdeal.S64x128)
      (1 : Fin 2) w1 wres Cert.KernelIdeal.Gen.concatenates_S64x128_S64x128_S64x256_d1 _ rfl rfl _
      (fun b hb => match b with | ⟨0, _⟩ => rfl | ⟨1, _⟩ => absurd rfl hb)
      rfl
  rw [hw]
  rfl

/-! ## The second layer's product -/

/-- The third pallas_call's function is the reference's h · W2. -/
theorem prod_eq (h : FVec Ideal Cert.KernelIdeal.S50000x128 .f32) (w : FVec Ideal Cert.KernelIdeal.S128x128 .f32) :
    Cert.KernelIdeal.Region2.product h w = Cert.ReferenceIdeal.Side.mm2 h w := by
  funext i
  rw [Cert.ReferenceIdeal.Side.mm2_apply]
  rfl

/-! ## The whole -/

/-- What the kernel's @main returns is what the reference returns, of the same arguments. -/
theorem result_eq (m : (ℓ : Loc Cert.KernelIdeal.nD Cert.KernelIdeal.τ Cert.KernelIdeal.sig) → Buf (Elt Ideal) ℓ) (c : Dev Cert.KernelIdeal.nD) :
    Cert.KernelIdeal.Walk.result m c
      = Cert.ReferenceIdeal.Side.result
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7)) := by
  have hh : Cert.KernelIdeal.Walk.hidden m c
      = Cert.ReferenceIdeal.Side.hidden
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg4))
          (m ((c : Thread Cert.KernelIdeal.nD Cert.KernelIdeal.τ).loc Cert.KernelIdeal.main_arg5))
          (m ((c : Thread Cert.KernelIdeal.nD Cert.KernelIdeal.τ).loc Cert.KernelIdeal.main_arg6))
          (m ((c : Thread Cert.KernelIdeal.nD Cert.KernelIdeal.τ).loc Cert.KernelIdeal.main_arg7)) := by
    show Cert.KernelIdeal.Region1.reluAdd (F := Ideal)
        (Cert.KernelIdeal.Walk.spmm _ _ _ (Cert.KernelIdeal.Walk.colsLo (Cert.KernelIdeal.Walk.layer1 m c)))
        (Cert.KernelIdeal.Walk.colsHi (Cert.KernelIdeal.Walk.layer1 m c)) = _
    rw [reluAdd1_eq, spmm_eq, lo_eq, hi_eq]
    rfl
  show Cert.KernelIdeal.Region3.reluAdd (F := Ideal)
      (Cert.KernelIdeal.Walk.spmm _ _ _ (Cert.KernelIdeal.Region2.product (Cert.KernelIdeal.Walk.hidden m c) _))
      (Cert.KernelIdeal.Walk.hidden m c) = _
  rw [reluAdd3_eq, spmm_eq, prod_eq, hh]
  rfl

end Cert.Bridge

end
-- ==== Proof.lean ====
/-
  A two-layer graph convolution with residuals, as four pallas_calls among host operations, against its jnp reference,
  over the extended reals:

      h   = relu (A · (x · W1)) + (x · Wres + bres)
      out = relu (A · (h · W2)) + h

  where A · s gathers the rows of s along the column indices, scales them by the edge weights and sums them into the rows
  the row indices name. The kernel program fuses the two first-layer products into one product of x with [W1 | Wres] plus
  the row [0 … 0 | bres], and takes the two column halves apart again; it computes each product ten row blocks at a
  time, narrowing the operands to bf16 first, which changes no value over the extended reals. The sparse product is the
  same chain of host operations in both programs.

  Frames: the two kernel programs' are the generated ones; the reference's is its generated run with the result dropped.
  The idealization rewrote nothing, so nothing is owed for it.
  Values: the launch theorem is called once more with the result array named at the last boundary of @main (RunNamed);
  each pallas_call's result array is one whole-array function of the arrays it reads (Region0 … Region3, over the block
  products of BlockProduct); the boundaries of @main are walked from the launch to the return (Walk); the reference's
  operations are named and its products read at an entry (RefSide); and the two results are one function (Bridge):
  columns 0 … 127 of x · [W1 | Wres] + [0 | bres] are x · W1 + 0 = x · W1, columns 128 … 255 are x · Wres + bres.
  No finiteness is used: a + 0 = a holds for every extended real.
-/
import proofs.«164993_j15195594293517_1_alg».proof.Defs
import proofs.«164993_j15195594293517_1_alg».proof.Proof.Gen.Kernel
import proofs.«164993_j15195594293517_1_alg».proof.Proof.Gen.Kernel.Frame
import proofs.«164993_j15195594293517_1_alg».proof.Proof.Gen.KernelIdeal
import proofs.«164993_j15195594293517_1_alg».proof.Proof.Gen.KernelIdeal.Frame
import proofs.«164993_j15195594293517_1_alg».proof.Proof.Gen.ReferenceIdeal
import proofs.«164993_j15195594293517_1_alg».proof.Proof.Gen.ReferenceIdeal.Run
import proofs.«164993_j15195594293517_1_alg».proof.Proof.Gen.Pre_finite_inputs
import proofs.«164993_j15195594293517_1_alg».proof.Proof.RunNamed
import proofs.«164993_j15195594293517_1_alg».proof.Proof.Walk
import proofs.«164993_j15195594293517_1_alg».proof.Proof.RefSide
import proofs.«164993_j15195594293517_1_alg».proof.Proof.Bridge

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The reference's run ends with its result array at the function Cert.ReferenceIdeal.Side.result of its arguments:
    the run's composed term is that function's definition written out. -/
theorem reference_result (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v37)
          = Cert.ReferenceIdeal.Side.result
              (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
              (m' ((c.tc : Thread Cert.ReferenceIdeal.nD Cert.ReferenceIdeal.τ).loc Cert.ReferenceIdeal.main_arg3))
              (m' ((c.tc : Thread Cert.ReferenceIdeal.nD Cert.ReferenceIdeal.τ).loc Cert.ReferenceIdeal.main_arg4))
              (m' ((c.tc : Thread Cert.ReferenceIdeal.nD Cert.ReferenceIdeal.τ).loc Cert.ReferenceIdeal.main_arg5))
              (m' ((c.tc : Thread Cert.ReferenceIdeal.nD Cert.ReferenceIdeal.τ).loc Cert.ReferenceIdeal.main_arg6))
              (m' ((c.tc : Thread Cert.ReferenceIdeal.nD Cert.ReferenceIdeal.τ).loc Cert.ReferenceIdeal.main_arg7))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)) :=
  (θ_run Cert.ReferenceIdeal.defs _ _).mono (fun _ h c => ⟨(h c).1.trans (by unfold Cert.ReferenceIdeal.Side.result Cert.ReferenceIdeal.Side.hidden Cert.ReferenceIdeal.Side.spmm; rfl), (h c).2⟩)
    (Cert.ReferenceIdeal.Value.run (F := Ideal) m' ρ')

/-- The two idealized programs, from memories agreeing on the arguments, both end with the one function of the
    arguments in their result arrays. -/
theorem algebraic : Cert.algebraic_KernelIdeal_ReferenceIdeal := by
  intro m ρ m' ρ' _ hagree
  refine ⟨fun c => Cert.KernelIdeal.Walk.result m c, ?_, ?_⟩
  · exact (θ_run Cert.KernelIdeal.defs _ _).mono
      (fun r h c => ⟨(h c).1.trans (Cert.KernelIdeal.Walk.at7_out m ρ c), (h c).2⟩)
      (Cert.KernelIdeal.RunNamed.run_named m ρ)
  · refine (θ_run Cert.ReferenceIdeal.defs _ _).mono (fun _ h c => ⟨(h c).1.trans ?_, (h c).2⟩) (reference_result m' ρ')
    obtain ⟨e0, e1, e2, e3, e4, e5, e6, e7⟩ := hagree c
    rw [e0, e1, e2, e3, e4, e5, e6, e7]
    exact (Cert.Bridge.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
